-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.LtcSpec.lean ====
/-
  One row of the liquid time-constant cell, over the extended reals.

  For a state row `hr`, an input row `xr` (both of length 1024), three 1024 × 1024 weight tables stored
  [out, in], and three parameter rows, the cell computes, for each output position `j`,
    gate  = logistic (Σₖ hr k · wgate j k)
    drive = tanh (Σₖ hr k · wrec j k + Σₖ xr k · win j k)
    d j   = (gate · drive − hr j) · exp (− lt j)
  and then normalises the row `d`: with `mean v = (Σⱼ v j) / 1024`,
    out j = (d j − mean d) · rsqrt (mean ((d − mean d)²) + ε) · ga j + be j.
  Each output row depends on its own rows of the state and the input only, and on the whole weight tables.
  `G` lays the rows out as the 8192 × 1024 result array.
-/
import Idealize.ShloMosaic.PureOps.Ideal
import Idealize.ShloMosaic.Lib.ValueIdx

noncomputable section

namespace Cert.Ltc

open Idealize.ShloMosaic Idealize.ShloMosaic.ValueIdx

/-- A row of 1024 extended reals. -/
abbrev Row := Fin 1024 → EReal
/-- A 1024 × 1024 table, first index the output position, second the contracted one. -/
abbrev Mat := Fin 1024 → Fin 1024 → EReal

/-- The un-normalised update of one row: gated drive minus the state, scaled by the inverse time constant. -/
def dhRow (hr xr : Row) (wrec win wgate : Mat) (lt : Row) : Row := fun j =>
  (Ideal.logistic (∑ k, hr k * wgate j k) * Ideal.tanh ((∑ k, hr k * wrec j k) + ∑ k, xr k * win j k) - hr j)
    * Ideal.exp (-(lt j))

/-- The mean of a row: its sum divided by 1024 (the f32 word of 1024.0). -/
def mean (v : Row) : EReal := Ideal.div (∑ j, v j) (Ideal.ofBits .f32 0x44800000#32)

/-- Layer normalisation of a row `d` with scale `ga` and shift `be`; ε is the f32 word nearest 1e-5. -/
def lnRow (d ga be : Row) : Row := fun j =>
  (d j - mean d) * Ideal.rsqrt (mean (fun q => (d q - mean d) * (d q - mean d)) + Ideal.ofBits .f32 0x3727C5AC#32) * ga j + be j

/-- One output row of the cell. -/
def cellRow (hr xr : Row) (wrec win wgate : Mat) (lt ga be : Row) : Row :=
  lnRow (dhRow hr xr wrec win wgate lt) ga be

/-- The whole result: row `r` of the output is the cell applied to row `r` of the state and of the input. -/
def G (h x : (⟨2, ![8192, 1024]⟩ : Shape).Idx → EReal) (win wrec wgate : (⟨2, ![1024, 1024]⟩ : Shape).Idx → EReal)
    (lt ga be : (⟨1, ![1024]⟩ : Shape).Idx → EReal) : (⟨2, ![8192, 1024]⟩ : Shape).Idx → EReal := fun i =>
  cellRow (fun k => h (ix2 (n0 := 8192) (i 0) k)) (fun k => x (ix2 (n0 := 8192) (i 0) k))
    (fun j k => wrec (ix2 j k)) (fun j k => win (ix2 j k)) (fun j k => wgate (ix2 j k))
    (fun j => lt (ix1 j)) (fun j => ga (ix1 j)) (fun j => be (ix1 j)) (i 1)

/-- `G` at an index given by its two coordinates. -/
theorem G_ix2 (h x : (⟨2, ![8192, 1024]⟩ : Shape).Idx → EReal) (win wrec wgate : (⟨2, ![1024, 1024]⟩ : Shape).Idx → EReal)
    (lt ga be : (⟨1, ![1024]⟩ : Shape).Idx → EReal) (r : Fin 8192) (q : Fin 1024) :
    G h x win wrec wgate lt ga be (ix2 r q)
      = cellRow (fun k => h (ix2 r k)) (fun k => x (ix2 r k)) (fun j k => wrec (ix2 j k)) (fun j k => win (ix2 j k))
          (fun j k => wgate (ix2 j k)) (fun j => lt (ix1 j)) (fun j => ga (ix1 j)) (fun j => be (ix1 j)) q := rfl

end Cert.Ltc

end
-- ==== Proof.LibRowRowDot.lean ====
/-
  A matrix product that contracts the SECOND axis of both operands, read at an entry.

  For the dimension numbers that contract axis 1 of an M × K matrix against axis 1 of an N × K matrix (the product of
  the left operand with the right operand's transpose, no batch axis) the sum over the product's contraction index is
  the sum over `k : Fin K` of `l (a, k) · r (b, k)`. Stated for ANY record with those dimension numbers, whatever the
  three extents; the forms for a `tpu.matmul` into a zero accumulator and for the host's `dot_general` at the ideal
  values follow.
-/
import Idealize.ShloMosaic.PureOps.Ideal.Laws
import Idealize.ShloMosaic.Lib.ValueIdx

noncomputable section

namespace Cert.LibRowRowDot

open Idealize.ShloMosaic Idealize.ShloMosaic.ValueIdx

variable {M K N : Nat}

/-- The sum over the contraction index is the sum over `k : Fin K` of `l (a, k) * r (b, k)`: each operand keeps its
    first axis (the result's row for the left one, the result's column for the right one) and runs its second. -/
theorem dot_sum (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  -- the left operand's kept axis (its first) reads the result's row index
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  -- the right operand's kept axis (its first) reads the result's column index
  have r0 : ∀ q : d.contr.Idx, (d.rhsIdx (ix2 a b) q 0).val = b.val := by
    subst hd; intro q
    unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 b k := funext fun ax => Fin.ext (by
    match ax with
    | ⟨0, _⟩ => exact r0 _
    | ⟨1, _⟩ => exact (d.rhsIdx_val_of_single hrc _ _).trans hk)
  rw [el, er]

/-- A `tpu.matmul` of those dimension numbers into the zero accumulator, at the ideal values, at entry (a, b). -/
theorem matmul_zero_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (dot_sum d hlc hrc hln hrn hlb hrb l r a b)

/-- The host's `dot_general` of those dimension numbers, at the ideal values, at entry (a, b). -/
theorem dotGeneral_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (sched : HostSchedule)
    (l : FVec Ideal ⟨2, ![M, K]⟩ φ₁) (r : FVec Ideal ⟨2, ![N, K]⟩ φ₂) (a : Fin M) (b : Fin N) :
    FloatOps.dotGeneral d prec sched l r (ix2 a b) = ∑ k : Fin K, l (ix2 a k) * r (ix2 b k) :=
  (Ideal.dotGeneral_apply d prec sched l r (ix2 a b)).trans (dot_sum d hlc hrc hln hrn hlb hrb l r a b)

end Cert.LibRowRowDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.KernelRow.lean ====
/-
  The kernel's body on one block of 256 rows, entry by entry.

  The body loads a 256 × 1024 block of the state and of the input, the three whole weight tables and the three
  parameter rows (each a 1 × 1024 table). Its three matrix products contract the second axis of both operands, so the
  entry (p, q) of a product is Σₖ block (p, k) · table (q, k); rounding the operands to bf16 changes nothing over the
  extended reals. The sums along a row (`multi_reduction <add>` over axis 1) are sums over the 1024 entries of that row.
  Hence entry (p, q) of what the body stores is the cell's row function (Cert.Ltc.cellRow) of row p of the two blocks.
-/
import proofs.«121946_j79877801771610_1_alg».proof.Proof.Gen.KernelIdeal.Value
import proofs.«121946_j79877801771610_1_alg».proof.Proof.LtcSpec
import proofs.«121946_j79877801771610_1_alg».proof.Proof.LibRowRowDot
import proofs.«121946_j79877801771610_1_alg».proof.Proof.LibRowBroadcast
import proofs.«121946_j79877801771610_1_alg».proof.Proof.LibColumnForms
import Idealize.ShloMosaic.Lib.Pipeline.Value
import Idealize.ShloMosaic.PureOps.Ideal.Laws

noncomputable section

namespace Cert.Ltc.KernelSide

open Cert.KernelIdeal Cert.KernelIdeal.Gen Idealize.ShloMosaic Idealize.ShloMosaic.ValueIdx

/-- Row `r` of a two-axis array with 1024 columns, put back among the columns: the reduced index `r` with the
    coordinate `k` inserted on axis 1 is (r, k). -/
theorem lift_row {a : Nat} (h : (⟨2, ![a, 1024]⟩ : Shape).Reduces [1] (⟨1, ![a]⟩ : Shape)) (r : Fin a)
    (k : Fin ((⟨2, ![a, 1024]⟩ : Shape).size 1)) : h.lift (ix1 r) k = ix2 r (⟨k.val, k.isLt⟩ : Fin 1024) := by
  funext c; apply Fin.ext
  fin_cases c <;> rfl

/-- A sum along the rows of a 256 × 1024 array, at row `p`. -/
theorem rowSum_apply (src : FVec Ideal S256x1024 .f32) (p : Fin 256) :
    multiReduction .add [1] S256 src 0x00000000#32 Facts₀.reduces_S256x1024_S256 (.inl rfl) rfl (ix1 p)
      = ∑ k : Fin 1024, src (ix2 p k) := by
  refine (Ideal.multiReduction_add_single src 0x00000000#32 Facts₀.reduces_S256x1024_S256 (.inl rfl) rfl (ix1 p)).trans ?_
  exact Finset.sum_congr rfl fun k _ => congrArg src (lift_row Facts₀.reduces_S256x1024_S256 p k)

/-- The un-normalised update the body computes, at entry (p, q) of the block. -/
theorem dh_apply (P0 P1 : Vec Ideal S256x1024 .f32) (P2 P3 P4 : Vec Ideal S1024x1024 .f32) (P5 : Vec Ideal S1x1024 .f32)
    (p : Fin 256) (q : Fin 1024) :
    k0_pay2 P0 P1 P2 P3 P4 P5 (ix2 p q)
      = Cert.Ltc.dhRow (fun k => P0 (ix2 p k)) (fun k => P1 (ix2 p k)) (fun j k => P2 (ix2 j k)) (fun j k => P3 (ix2 j k))
          (fun j k => P4 (ix2 j k)) (fun j => P5 (ix2 (0 : Fin 1) j)) q := by
  unfold k0_pay2 Cert.Ltc.dhRow
  dsimp only
  have egate := Cert.LibRowRowDot.matmul_zero_apply dot_S256x1024_S1024x1024_S256x1024_1_1_0_0_n_n rfl rfl rfl rfl rfl rfl none
    (truncf .bf16 P0 Facts₀.bitsLt_bf16_f32) (truncf .bf16 P4 Facts₀.bitsLt_bf16_f32) p q
  have erec := Cert.LibRowRowDot.matmul_zero_apply dot_S256x1024_S1024x1024_S256x1024_1_1_0_0_n_n rfl rfl rfl rfl rfl rfl none
    (truncf .bf16 P0 Facts₀.bitsLt_bf16_f32) (truncf .bf16 P2 Facts₀.bitsLt_bf16_f32) p q
  have ein := Cert.LibRowRowDot.matmul_zero_apply dot_S256x1024_S1024x1024_S256x1024_1_1_0_0_n_n rfl rfl rfl rfl rfl rfl none
    (truncf .bf16 P1 Facts₀.bitsLt_bf16_f32) (truncf .bf16 P3 Facts₀.bitsLt_bf16_f32) p q
  have etau : broadcastTo S256x1024
      (exp (subf (broadcast S1x1024 (FloatOps.ofBits .f32 0x00000000#32)) (shapeCast S1x1024 P5 Facts₀.shapeCasts_S1x1024_S1x1024)) : FVec Ideal S1x1024 .f32)
      Facts₀.broadcasts_S1x1024_S256x1024 (ix2 p q) = Ideal.exp (-(P5 (ix2 (0 : Fin 1) q))) := by
    refine (RowBroadcast.broadcastTo_row _ _ p q).trans ?_
    show Ideal.exp (Ideal.ofBits .f32 0x00000000#32 - shapeCast S1x1024 P5 Facts₀.shapeCasts_S1x1024_S1x1024 (ix2 (0 : Fin 1) q)) = _
    rw [shapeCast_self, Ideal.ofBits_zero_f32, zero_sub]
  exact congrArg₂ (· * ·) (congrArg₂ (· - ·) (congrArg₂ (· * ·) (congrArg Ideal.logistic egate)
    (congrArg Ideal.tanh (congrArg₂ (· + ·) erec ein))) rfl) etau

/-- A 256 × 1024 array minus its row means (each mean kept as a column and repeated along the row), at entry (p, k). -/
theorem centred_apply (src : FVec Ideal S256x1024 .f32) (p : Fin 256) (k : Fin 1024) :
    subf src (broadcastTo S256x1024 (divf (shapeCast S256x1
        (multiReduction .add [1] S256 src 0x00000000#32 Facts₀.reduces_S256x1024_S256 (.inl rfl) rfl) Facts₀.shapeCasts_S256_S256x1)
        (broadcast S256x1 (FloatOps.ofBits .f32 0x44800000#32))) Facts₀.broadcasts_S256x1_S256x1024) (ix2 p k)
      = src (ix2 p k) - Cert.Ltc.mean (fun j => src (ix2 p j)) := by
  show src (ix2 p k) - broadcastTo S256x1024 _ _ (ix2 p k) = _
  rw [ColumnForms.broadcastTo_a1_ac_apply]
  show _ - Ideal.div (shapeCast S256x1 _ _ (ix2 p (0 : Fin 1))) (Ideal.ofBits .f32 0x44800000#32) = _
  rw [ColumnForms.shapeCast_a_a1_apply, rowSum_apply]
  rfl

/-- The sum along row `p` of the squares of the centred array: the sum of the squared deviations of that row from its mean. -/
theorem sqDevSum_apply (src : FVec Ideal S256x1024 .f32) (p : Fin 256) :
    multiReduction .add [1] S256
        (mulf
          (subf src (broadcastTo S256x1024 (divf (shapeCast S256x1
            (multiReduction .add [1] S256 src 0x00000000#32 Facts₀.reduces_S256x1024_S256 (.inl rfl) rfl) Facts₀.shapeCasts_S256_S256x1)
            (broadcast S256x1 (FloatOps.ofBits .f32 0x44800000#32))) Facts₀.broadcasts_S256x1_S256x1024))
          (subf src (broadcastTo S256x1024 (divf (shapeCast S256x1
            (multiReduction .add [1] S256 src 0x00000000#32 Facts₀.reduces_S256x1024_S256 (.inl rfl) rfl) Facts₀.shapeCasts_S256_S256x1)
            (broadcast S256x1 (FloatOps.ofBits .f32 0x44800000#32))) Facts₀.broadcasts_S256x1_S256x1024)))
        0x00000000#32 Facts₀.reduces_S256x1024_S256 (.inl rfl) rfl (ix1 p)
      = ∑ k : Fin 1024, (src (ix2 p k) - Cert.Ltc.mean (fun j => src (ix2 p j))) * (src (ix2 p k) - Cert.Ltc.mean (fun j => src (ix2 p j))) := by
  refine (rowSum_apply _ p).trans (Finset.sum_congr rfl fun k _ => ?_)
  show subf src _ (ix2 p k) * subf src _ (ix2 p k) = _
  rw [centred_apply]

/-- What the body stores, at entry (p, q) of the block: the normalised update of row p. -/
theorem stored_apply (P0 P1 : Vec Ideal S256x1024 .f32) (P2 P3 P4 : Vec Ideal S1024x1024 .f32) (P5 P6 P7 : Vec Ideal S1x1024 .f32)
    (p : Fin 256) (q : Fin 1024) :
    Cert.KernelIdeal.Value.E8 P0 P1 P2 P3 P4 P5 P6 P7 (ix2 p q)
      = Cert.Ltc.lnRow (fun j => k0_pay2 P0 P1 P2 P3 P4 P5 (ix2 p j)) (fun j => P6 (ix2 (0 : Fin 1) j)) (fun j => P7 (ix2 (0 : Fin 1) j)) q := by
  have i0 : Cert.KernelIdeal.Value.ix8_0 (ix2 p q) = ix2 p q := funext fun a => by
    match a with | ⟨0, _⟩ => rfl | ⟨1, _⟩ => rfl
  have i1 : Cert.KernelIdeal.Value.ix8_1 (ix2 p q) = ix1 p := funext fun a => by
    match a with | ⟨0, _⟩ => rfl
  have i2 : Cert.KernelIdeal.Value.ix8_2 (ix2 p q) = ix1 p := funext fun a => by
    match a with | ⟨0, _⟩ => rfl
  have i3 : Cert.KernelIdeal.Value.ix8_3 (ix2 p q) = ix2 (0 : Fin 1) q := funext fun a => by
    match a with | ⟨0, _⟩ => rfl | ⟨1, _⟩ => rfl
  have i4 : Cert.KernelIdeal.Value.ix8_4 (ix2 p q) = ix2 (0 : Fin 1) q := funext fun a => by
    match a with | ⟨0, _⟩ => rfl | ⟨1, _⟩ => rfl
  show FloatOps.addf _ _ = _
  rw [i0, i1, i2, i3, i4, sqDevSum_apply, rowSum_apply]
  rfl

end Cert.Ltc.KernelSide

end
-- ==== Proof.KernelArray.lean ====
/-
  From the blocks to the array: the kernel's result array is the cell applied row by row.

  The grid has 32 points. Point t stages rows 256·t … 256·t + 255 of the state and of the input (all 1024 columns), the
  three whole weight tables and the three parameter rows (each reshaped on the host to a 1 × 1024 table), and writes back
  rows 256·t … 256·t + 255 of the result. Entry (p, q) of what point t writes is the cell's row function of row p of the
  two staged blocks, that is of row 256·t + p of the arrays; the 32 blocks tile the result array, row r lying in the
  block of point r / 256.
-/
import proofs.«121946_j79877801771610_1_alg».proof.Proof.Gen.KernelIdeal.Value
import proofs.«121946_j79877801771610_1_alg».proof.Proof.KernelRow
import proofs.«121946_j79877801771610_1_alg».proof.Proof.LtcSpec
import Idealize.ShloMosaic.Lib.Pipeline.Value
import Idealize.ShloMosaic.Lib.StableHlo.Run

noncomputable section

namespace Cert.Ltc.KernelArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What the body leaves in the output block, at entry (p, q), for any contents of the staged blocks. -/
theorem out_apply (x0 x1 : Vec Ideal S256x1024 .f32) (x2 x3 x4 : Vec Ideal S1024x1024 .f32) (x5 x6 x7 : Vec Ideal S1x1024 .f32)
    (p : Fin 256) (q : Fin 1024) :
    out0_8 x0 x1 x2 x3 x4 x5 x6 x7 (ix2 p q)
      = Cert.Ltc.cellRow (fun k => x0 (ix2 p k)) (fun k => x1 (ix2 p k)) (fun j k => x2 (ix2 j k)) (fun j k => x3 (ix2 j k))
          (fun j k => x4 (ix2 j k)) (fun j => x5 (ix2 (0 : Fin 1) j)) (fun j => x6 (ix2 (0 : Fin 1) j)) (fun j => x7 (ix2 (0 : Fin 1) j)) q := by
  unfold out0_8
  simp only [View.ld_unit_zero (S := S256x1024) zero_offsets, View.ld_unit_zero (S := S1024x1024) zero_offsets,
    View.ld_unit_zero (S := S1x1024) zero_offsets]
  rw [Cert.KernelIdeal.Value.canon8_eq, Cert.Ltc.KernelSide.stored_apply]
  unfold Cert.Ltc.cellRow
  congr 1
  funext j
  exact Cert.Ltc.KernelSide.dh_apply x0 x1 x2 x3 x4 x5 p j

/-- The printed index maps over the 32 grid points: the state, input and result windows move down the rows with the
    point, the other windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The time-constant row as the region finds it: the host's reshape of the argument to one row. -/
theorem V_lt (c : Dev nD) : (V m c main_v0 : S1x1024.Idx → EReal)
    = shapeCast S1x1024 (m ((c : Thread nD τ).loc main_arg5)) Facts₀.shapeCasts_S1024_S1x1024 := by
  dsimp only [Gen.V, Gen.hostOps0]; after_results; rfl

/-- The scale row as the region finds it. -/
theorem V_ga (c : Dev nD) : (V m c main_v1 : S1x1024.Idx → EReal)
    = shapeCast S1x1024 (m ((c : Thread nD τ).loc main_arg6)) Facts₀.shapeCasts_S1024_S1x1024 := by
  dsimp only [Gen.V, Gen.hostOps0]; after_results; rfl

/-- The shift row as the region finds it. -/
theorem V_be (c : Dev nD) : (V m c main_v2 : S1x1024.Idx → EReal)
    = shapeCast S1x1024 (m ((c : Thread nD τ).loc main_arg7)) Facts₀.shapeCasts_S1024_S1x1024 := by
  dsimp only [Gen.V, Gen.hostOps0]; after_results; rfl

/-- A vector of length 1024 reshaped to one row, at (0, j): the vector at j. -/
theorem row_of_vector (x : S1024.Idx → EReal) (j : Fin 1024) :
    shapeCast S1x1024 x Facts₀.shapeCasts_S1024_S1x1024 (ix2 (0 : Fin 1) j) = x (ix1 j) :=
  shapeCast_apply x _ (ix2 (0 : Fin 1) j) (ix1 j) (by
    rw [Shape.rowMajor_val_one, Shape.rowMajor_val_two]
    show j.val = 0 * 1024 + j.val
    omega)

/-- The result array as a function of the launch memory. -/
abbrev result (c : Dev nD) : S8192x1024.Idx → EReal :=
  Cert.Ltc.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The array row that row `p` of point `t`'s blocks is: 256·t + p. -/
def rowOf (t : Fin cfg0.N) (p : Fin 256) : Fin 8192 :=
  ⟨t.val * 256 + p.val, by have := lt_of_lt_of_eq t.isLt N_0; have := p.isLt; omega⟩

/-- Entry (p, k) of the state block staged at point `t` is entry (256·t + p, k) of the state. -/
theorem blk_state (c : Dev nD) (t : Fin cfg0.N) (p : Fin 256) (k : Fin 1024) :
    (iblk m c 0 t : S256x1024.Idx → EReal) (ix2 p k) = m ((c : Thread nD τ).loc main_arg0) (ix2 (rowOf t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Entry (p, k) of the input block staged at point `t` is entry (256·t + p, k) of the input. -/
theorem blk_input (c : Dev nD) (t : Fin cfg0.N) (p : Fin 256) (k : Fin 1024) :
    (iblk m c 1 t : S256x1024.Idx → EReal) (ix2 p k) = m ((c : Thread nD τ).loc main_arg1) (ix2 (rowOf t p) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- The recurrent weights are staged whole at every point. -/
theorem blk_wrec (c : Dev nD) (t : Fin cfg0.N) (j k : Fin 1024) :
    (iblk m c 2 t : S1024x1024.Idx → EReal) (ix2 j k) = m ((c : Thread nD τ).loc main_arg3) (ix2 j k) := by
  obtain ⟨-, -, -, -, e0, e1, -⟩ := idx_facts t
  show V m c main_arg3 (((cfg0.win 2).blk t).view.emb (ix2 j k)) = _
  rw [V_main_arg3]
  refine congrArg _ (funext fun a => Fin.ext ?_)
  match a with
  | ⟨0, _⟩ => show win0_2.index t (0 : Fin 2) * 1024 + 1 * j.val = j.val; omega
  | ⟨1, _⟩ => show win0_2.index t (1 : Fin 2) * 1024 + 1 * k.val = k.val; omega

/-- The input weights are staged whole at every point. -/
theorem blk_win (c : Dev nD) (t : Fin cfg0.N) (j k : Fin 1024) :
    (iblk m c 3 t : S1024x1024.Idx → EReal) (ix2 j k) = m ((c : Thread nD τ).loc main_arg2) (ix2 j k) := by
  obtain ⟨-, -, -, -, -, -, e0, e1, -⟩ := idx_facts t
  show V m c main_arg2 (((cfg0.win 3).blk t).view.emb (ix2 j k)) = _
  rw [V_main_arg2]
  refine congrArg _ (funext fun a => Fin.ext ?_)
  match a with
  | ⟨0, _⟩ => show win0_3.index t (0 : Fin 2) * 1024 + 1 * j.val = j.val; omega
  | ⟨1, _⟩ => show win0_3.index t (1 : Fin 2) * 1024 + 1 * k.val = k.val; omega

/-- The gate weights are staged whole at every point. -/
theorem blk_wgate (c : Dev nD) (t : Fin cfg0.N) (j k : Fin 1024) :
    (iblk m c 4 t : S1024x1024.Idx → EReal) (ix2 j k) = m ((c : Thread nD τ).loc main_arg4) (ix2 j k) := by
  obtain ⟨-, -, -, -, -, -, -, -, e0, e1, -⟩ := idx_facts t
  show V m c main_arg4 (((cfg0.win 4).blk t).view.emb (ix2 j k)) = _
  rw [V_main_arg4]
  refine congrArg _ (funext fun a => Fin.ext ?_)
  match a with
  | ⟨0, _⟩ => show win0_4.index t (0 : Fin 2) * 1024 + 1 * j.val = j.val; omega
  | ⟨1, _⟩ => show win0_4.index t (1 : Fin 2) * 1024 + 1 * k.val = k.val; omega

/-- The staged time-constant row, at (0, j), is the argument at j. -/
theorem blk_lt (c : Dev nD) (t : Fin cfg0.N) (j : Fin 1024) :
    (iblk m c 5 t : S1x1024.Idx → EReal) (ix2 (0 : Fin 1) j) = m ((c : Thread nD τ).loc main_arg5) (ix1 j) := by
  obtain ⟨-, -, -, -, -, -, -, -, -, -, e0, e1, -⟩ := idx_facts t
  show V m c main_v0 (((cfg0.win 5).blk t).view.emb (ix2 (0 : Fin 1) j)) = _
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 1024 + 1 * j.val = j.val; omega)
  rw [e, V_lt, row_of_vector]

/-- The staged scale row, at (0, j), is the argument at j. -/
theorem blk_ga (c : Dev nD) (t : Fin cfg0.N) (j : Fin 1024) :
    (iblk m c 6 t : S1x1024.Idx → EReal) (ix2 (0 : Fin 1) j) = m ((c : Thread nD τ).loc main_arg6) (ix1 j) := by
  obtain ⟨-, -, -, -, -, -, -, -, -, -, -, -, e0, e1, -⟩ := idx_facts t
  show V m c main_v1 (((cfg0.win 6).blk t).view.emb (ix2 (0 : Fin 1) j)) = _
  have e : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 1024 + 1 * j.val = j.val; omega)
  rw [e, V_ga, row_of_vector]

/-- The staged shift row, at (0, j), is the argument at j. -/
theorem blk_be (c : Dev nD) (t : Fin cfg0.N) (j : Fin 1024) :
    (iblk m c 7 t : S1x1024.Idx → EReal) (ix2 (0 : Fin 1) j) = m ((c : Thread nD τ).loc main_arg7) (ix1 j) := by
  obtain ⟨-, -, -, -, -, -, -, -, -, -, -, -, -, -, e0, e1, -⟩ := idx_facts t
  show V m c main_v2 (((cfg0.win 7).blk t).view.emb (ix2 (0 : Fin 1) j)) = _
  have e : ((cfg0.win 7).blk t).view.emb (ix2 (0 : Fin 1) j) = ix2 (0 : Fin 1) j := funext fun a => Fin.ext (by
    match a with
    | ⟨0, _⟩ => show win0_7.index t (0 : Fin 2) * 1 + 1 * 0 = 0; omega
    | ⟨1, _⟩ => show win0_7.index t (1 : Fin 2) * 1024 + 1 * j.val = j.val; omega)
  rw [e, V_be, row_of_vector]

/-- WHAT POINT `t` WRITES BACK is block `t` of the result. -/
theorem flushed_eq (c : Dev nD) (t : Fin cfg0.N) :
    (dats m 0 c).flushed 8 t = ((cfg0.win 8).blk t).view.read (Elt Ideal) (result m c) := by
  rw [Cert.KernelIdeal.Value.flushed8]
  obtain ⟨e00, e01, e10, e11, e20, e21, e30, e31, e40, e41, e50, e51, e60, e61, e70, e71, e80, e81⟩ := idx_facts t
  funext y
  obtain ⟨p, q, rfl⟩ : ∃ (p : Fin 256) (q : Fin 1024), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q)
    = result m c (((cfg0.win 8).blk t).view.emb (ix2 p q))
  refine (out_apply (iblk m c 0 t) (iblk m c 1 t) (iblk m c 2 t) (iblk m c 3 t) (iblk m c 4 t) (iblk m c 5 t) (iblk m c 6 t) (iblk m c 7 t) p q).trans ?_
  have hemb : ((cfg0.win 8).blk t).view.emb (ix2 p q) = ix2 (rowOf t p) q := funext fun a => Fin.ext (by
    match a with
    | ⟨0, _⟩ => show win0_8.index t (0 : Fin 2) * 256 + 1 * p.val = t.val * 256 + p.val; omega
    | ⟨1, _⟩ => show win0_8.index t (1 : Fin 2) * 1024 + 1 * q.val = q.val; omega)
  rw [hemb]
  show _ = Cert.Ltc.G _ _ _ _ _ _ _ _ (ix2 (rowOf t p) q)
  rw [Cert.Ltc.G_ix2]
  simp only [blk_state m c t, blk_input m c t, blk_wrec m c t, blk_win m c t, blk_wgate m c t, blk_lt m c t, blk_ga m c t, blk_be m c t]

/-- An index of the result array lies in point `t`'s block iff each coordinate lies in the block's range on its axis. -/
theorem mem_blk (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v3).slice (win0_8.rect t)).set ↔ _
  rw [View.set_slice_whole, Rect.mem_set_unit]
  exact Iff.rfl

/-- THE ARRAY after the run: the 32 blocks tile it (row r lies in the block of point r / 256), so it is the result. -/
theorem final (c : Dev nD) : (dats m 0 c).arrAt 8 cfg0.N = result m c :=
  (dats m 0 c).arrAt_eq_of_cover 8 (result m c) (fun t _ => flushed_eq m c t) fun i => by
    have hi0 : (i 0).val < 8192 := (i 0).isLt
    have hi1 : (i 1).val < 1024 := (i 1).isLt
    have hN : cfg0.N = 32 := N_0
    obtain ⟨t, ht⟩ : ∃ t : Fin cfg0.N, t.val = (i 0).val / 256 := ⟨⟨(i 0).val / 256, by rw [hN]; omega⟩, rfl⟩
    obtain ⟨-, -, -, -, -, -, -, -, -, -, -, -, -, -, -, -, e0, e1⟩ := idx_facts t
    refine ⟨t, flush0_8 t, ?_⟩
    rw [mem_blk]
    intro a
    match a with
    | ⟨0, _⟩ =>
      show win0_8.index t (0 : Fin 2) * 256 ≤ (i 0).val ∧ (i 0).val < win0_8.index t (0 : Fin 2) * 256 + 256
      omega
    | ⟨1, _⟩ =>
      show win0_8.index t (1 : Fin 2) * 1024 ≤ (i 1).val ∧ (i 1).val < win0_8.index t (1 : Fin 2) * 1024 + 1024
      omega

/-- The kernel's run: the result array ends at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Ltc.KernelArray

end
-- ==== Proof.RefRow.lean ====
/-
  The reference program, entry by entry: row r of its result is the cell's row function of row r of the state and input.
-/
import proofs.«121946_j79877801771610_1_alg».proof.Proof.Gen.ReferenceIdeal.Read
import proofs.«121946_j79877801771610_1_alg».proof.Proof.LtcSpec
import Idealize.ShloMosaic.Lib.IdealHost
import Idealize.ShloMosaic.PureOps.Ideal.Laws

noncomputable section

namespace Cert.Ltc.ReferenceSide

open Cert.ReferenceIdeal Cert.ReferenceIdeal.Gen Cert.ReferenceIdeal.Read Idealize.ShloMosaic Idealize.ShloMosaic.ValueIdx

theorem dh_apply (x0 x1 : (⟨S8192x1024, .f32⟩ : BufTy).Contents (Elt Ideal)) (x2 x3 x4 : (⟨S1024x1024, .f32⟩ : BufTy).Contents (Elt Ideal))
    (x5 : (⟨S1024, .f32⟩ : BufTy).Contents (Elt Ideal)) (r : Fin 8192) (q : Fin 1024) :
    val_main_v17 (F := Ideal) x0 x1 x2 x3 x4 x5 (ix2 r q)
      = Cert.Ltc.dhRow (fun k => x0 (ix2 r k)) (fun k => x1 (ix2 r k)) (fun j k => x3 (ix2 j k)) (fun j k => x2 (ix2 j k))
          (fun j k => x4 (ix2 j k)) (fun j => x5 (ix1 j)) q := by
  simp only [val_main_v17_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_v16_apply, val_main_v15_apply, val_main_v14_apply, val_main_v13_apply, val_main_cst_apply, val_main_cst_0_apply]
  have l0 : ∀ k : Fin 1024, lidx_main_v0 (ix2 r q) k = ix2 r k := fun k => funext fun a => by
    match a with | ⟨0, _⟩ => rfl | ⟨1, _⟩ => rfl
  have r0 : ∀ k : Fin 1024, ridx_main_v0 (ix2 r q) k = ix2 q k := fun k => funext fun a => by
    match a with | ⟨0, _⟩ => rfl | ⟨1, _⟩ => rfl
  have l1 : ∀ k : Fin 1024, lidx_main_v1 (ix2 r q) k = ix2 r k := fun k => funext fun a => by
    match a with | ⟨0, _⟩ => rfl | ⟨1, _⟩ => rfl
  have r1 : ∀ k : Fin 1024, ridx_main_v1 (ix2 r q) k = ix2 q k := fun k => funext fun a => by
    match a with | ⟨0, _⟩ => rfl | ⟨1, _⟩ => rfl
  have l3 : ∀ k : Fin 1024, lidx_main_v3 (ix2 r q) k = ix2 r k := fun k => funext fun a => by
    match a with | ⟨0, _⟩ => rfl | ⟨1, _⟩ => rfl
  have r3 : ∀ k : Fin 1024, ridx_main_v3 (ix2 r q) k = ix2 q k := fun k => funext fun a => by
    match a with | ⟨0, _⟩ => rfl | ⟨1, _⟩ => rfl
  have t0 : idx_main_v15 (idx_main_v16 (ix2 r q)) = ix1 q := funext fun a => by
    match a with | ⟨0, _⟩ => rfl
  simp only [l0, r0, l1, r1, l3, r3, t0]
  show (Ideal.div (Ideal.ofBits .f32 0x3F800000#32) (Ideal.ofBits .f32 0x3F800000#32 + Ideal.exp (-(∑ k, x0 (ix2 r k) * x4 (ix2 q k))))
      * Ideal.tanh ((∑ k, x0 (ix2 r k) * x3 (ix2 q k)) + ∑ k, x1 (ix2 r k) * x2 (ix2 q k)) - x0 (ix2 r q)) * Ideal.exp (-(x5 (ix1 q))) = _
  rw [Ideal.ofBits_one_f32]
  rfl

/-- The mean of row `r` of the un-normalised update, as the reference keeps it in a column. -/
theorem mean_apply (x0 x1 : (⟨S8192x1024, .f32⟩ : BufTy).Contents (Elt Ideal)) (x2 x3 x4 : (⟨S1024x1024, .f32⟩ : BufTy).Contents (Elt Ideal))
    (x5 : (⟨S1024, .f32⟩ : BufTy).Contents (Elt Ideal)) (r : Fin 8192) :
    val_main_v21 (F := Ideal) x0 x1 x2 x3 x4 x5 (ix2 r (0 : Fin 1))
      = Cert.Ltc.mean (fun j => val_main_v17 (F := Ideal) x0 x1 x2 x3 x4 x5 (ix2 r j)) := by
  simp only [val_main_v21_apply, val_main_v20_apply, val_main_v19_apply, val_main_v18_apply, val_main_cst_1_apply, val_main_cst_2_apply]
  have a0 : idx_main_v19 (ix2 r (0 : Fin 1)) = ix1 r := funext fun a => by
    match a with | ⟨0, _⟩ => rfl
  have a1 : ∀ k : Fin 1024, idx_main_v18 (ix1 r) k = ix2 r k := fun k => funext fun a => by
    match a with | ⟨0, _⟩ => rfl | ⟨1, _⟩ => rfl
  simp only [a0, a1]
  show Ideal.div (Ideal.ofBits .f32 0x00000000#32 + ∑ j, val_main_v17 (F := Ideal) x0 x1 x2 x3 x4 x5 (ix2 r j)) (Ideal.ofBits .f32 0x44800000#32) = _
  rw [Ideal.ofBits_zero_f32, zero_add]
  rfl

/-- The mean-square deviation of row `r`, as the reference keeps it in a column. -/
theorem var_apply (x0 x1 : (⟨S8192x1024, .f32⟩ : BufTy).Contents (Elt Ideal)) (x2 x3 x4 : (⟨S1024x1024, .f32⟩ : BufTy).Contents (Elt Ideal))
    (x5 : (⟨S1024, .f32⟩ : BufTy).Contents (Elt Ideal)) (r : Fin 8192) :
    val_main_v28 (F := Ideal) x0 x1 x2 x3 x4 x5 (ix2 r (0 : Fin 1))
      = Cert.Ltc.mean (fun k => (val_main_v17 (F := Ideal) x0 x1 x2 x3 x4 x5 (ix2 r k) - Cert.Ltc.mean (fun j => val_main_v17 (F := Ideal) x0 x1 x2 x3 x4 x5 (ix2 r j)))
          * (val_main_v17 (F := Ideal) x0 x1 x2 x3 x4 x5 (ix2 r k) - Cert.Ltc.mean (fun j => val_main_v17 (F := Ideal) x0 x1 x2 x3 x4 x5 (ix2 r j)))) := by
  simp only [val_main_v28_apply, val_main_v27_apply, val_main_v26_apply, val_main_v25_apply, val_main_cst_3_apply, val_main_cst_4_apply]
  have a0 : idx_main_v26 (ix2 r (0 : Fin 1)) = ix1 r := funext fun a => by
    match a with | ⟨0, _⟩ => rfl
  have a1 : ∀ k : Fin 1024, idx_main_v25 (ix1 r) k = ix2 r k := fun k => funext fun a => by
    match a with | ⟨0, _⟩ => rfl | ⟨1, _⟩ => rfl
  have a2 : ∀ k : Fin 1024, idx_main_v22 (ix2 r k) = ix2 r (0 : Fin 1) := fun k => funext fun a => by
    match a with | ⟨0, _⟩ => rfl | ⟨1, _⟩ => rfl
  simp only [a0, a1, val_main_v24_apply, val_main_v23_apply, val_main_v22_apply, a2, mean_apply]
  show Ideal.div (Ideal.ofBits .f32 0x00000000#32 + _) (Ideal.ofBits .f32 0x44800000#32) = _
  rw [Ideal.ofBits_zero_f32, zero_add]
  rfl

/-- The reference's result at entry (r, q): the normalised update of row r. -/
theorem out_apply (x0 x1 : (⟨S8192x1024, .f32⟩ : BufTy).Contents (Elt Ideal)) (x2 x3 x4 : (⟨S1024x1024, .f32⟩ : BufTy).Contents (Elt Ideal))
    (x5 x6 x7 : (⟨S1024, .f32⟩ : BufTy).Contents (Elt Ideal)) (r : Fin 8192) (q : Fin 1024) :
    val_main_v41 (F := Ideal) x0 x1 x2 x3 x4 x5 x6 x7 (ix2 r q)
      = Cert.Ltc.lnRow (fun j => val_main_v17 (F := Ideal) x0 x1 x2 x3 x4 x5 (ix2 r j)) (fun j => x6 (ix1 j)) (fun j => x7 (ix1 j)) q := by
  simp only [val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_cst_5_apply]
  have a0 : idx_main_v29 (ix2 r q) = ix2 r (0 : Fin 1) := funext fun a => by
    match a with | ⟨0, _⟩ => rfl | ⟨1, _⟩ => rfl
  have a1 : idx_main_v34 (ix2 r q) = ix2 r (0 : Fin 1) := funext fun a => by
    match a with | ⟨0, _⟩ => rfl | ⟨1, _⟩ => rfl
  have a2 : idx_main_v36 (idx_main_v37 (ix2 r q)) = ix1 q := funext fun a => by
    match a with | ⟨0, _⟩ => rfl
  have a3 : idx_main_v39 (idx_main_v40 (ix2 r q)) = ix1 q := funext fun a => by
    match a with | ⟨0, _⟩ => rfl
  simp only [a0, a1, a2, a3, mean_apply, var_apply]
  rfl

/-- The reference's result as one array: the cell's row function, row by row. -/
theorem result_eq (x0 x1 : (⟨S8192x1024, .f32⟩ : BufTy).Contents (Elt Ideal)) (x2 x3 x4 : (⟨S1024x1024, .f32⟩ : BufTy).Contents (Elt Ideal))
    (x5 x6 x7 : (⟨S1024, .f32⟩ : BufTy).Contents (Elt Ideal)) :
    val_main_v41 (F := Ideal) x0 x1 x2 x3 x4 x5 x6 x7 = Cert.Ltc.G x0 x1 x2 x3 x4 x5 x6 x7 := by
  funext i
  obtain ⟨r, q, rfl⟩ : ∃ (r : Fin 8192) (q : Fin 1024), i = ix2 r q := ⟨i 0, i 1, eq_ix2 i⟩
  rw [out_apply, Cert.Ltc.G_ix2]
  unfold Cert.Ltc.cellRow
  congr 1
  funext j
  exact dh_apply x0 x1 x2 x3 x4 x5 r j

end Cert.Ltc.ReferenceSide

end
-- ==== Proof.lean ====
/-
  The kernel is a fused liquid time-constant cell followed by a layer normalisation of each row, tiled over the batch:
  each of the 32 grid points handles 256 rows of the state and of the input against the three whole weight tables.
  The reference computes the same cell on the whole arrays with jnp.

  Over the extended reals both are the same function of the arguments, row by row (Proof/LtcSpec.lean):
    d   = (logistic (h · Wgateᵀ) · tanh (h · Wrecᵀ + x · Winᵀ) − h) · exp (− log_tau),
    out = (d − mean d) · rsqrt (mean ((d − mean d)²) + ε) · gamma + beta.
  The kernel rounds the matrix operands to bf16 (the identity over the extended reals), spells the logistic as one
  operation where the reference spells 1 / (1 + exp (− ·)) (the same function by definition), and negates log_tau as
  0 − log_tau (equal to the negation on the extended reals). The sums are over the same index sets on both sides, so no
  algebraic law beyond 0 + s = s and 0 − a = − a is needed, and the precondition that the inputs are finite is never opened.

  Proof/KernelRow.lean reads the kernel's body on one block entry by entry, Proof/KernelArray.lean passes from the 32
  blocks to the result array, Proof/RefRow.lean reads the reference's operations entry by entry.
-/
import proofs.«121946_j79877801771610_1_alg».proof.Defs
import proofs.«121946_j79877801771610_1_alg».proof.Proof.Gen.Kernel
import proofs.«121946_j79877801771610_1_alg».proof.Proof.Gen.Kernel.Skeleton
import proofs.«121946_j79877801771610_1_alg».proof.Proof.Gen.Kernel.Launch
import proofs.«121946_j79877801771610_1_alg».proof.Proof.Gen.Kernel.Points
import proofs.«121946_j79877801771610_1_alg».proof.Proof.Gen.Kernel.Frame
import proofs.«121946_j79877801771610_1_alg».proof.Proof.Gen.KernelIdeal
import proofs.«121946_j79877801771610_1_alg».proof.Proof.Gen.KernelIdeal.Skeleton
import proofs.«121946_j79877801771610_1_alg».proof.Proof.Gen.KernelIdeal.Launch
import proofs.«121946_j79877801771610_1_alg».proof.Proof.Gen.KernelIdeal.Points
import proofs.«121946_j79877801771610_1_alg».proof.Proof.Gen.KernelIdeal.Frame
import proofs.«121946_j79877801771610_1_alg».proof.Proof.Gen.ReferenceIdeal
import proofs.«121946_j79877801771610_1_alg».proof.Proof.Gen.Pre_finite_inputs
import proofs.«121946_j79877801771610_1_alg».proof.Proof.Gen.KernelIdeal.Value
import proofs.«121946_j79877801771610_1_alg».proof.Proof.Gen.ReferenceIdeal.Run
import proofs.«121946_j79877801771610_1_alg».proof.Proof.Gen.ReferenceIdeal.Read
import proofs.«121946_j79877801771610_1_alg».proof.Proof.KernelArray
import proofs.«121946_j79877801771610_1_alg».proof.Proof.RefRow
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments, both programs end with the same result array: the cell's row
    function applied to each row of the state and the input. -/
theorem algebraic : Cert.algebraic_KernelIdeal_ReferenceIdeal := by
  intro m ρ m' ρ' _ hagree
  refine ⟨fun c => Cert.Ltc.KernelArray.result m c, Cert.Ltc.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.Ltc.ReferenceSide.result_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
